-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x128 : Shape := ⟨3, ![256, 512, 128]⟩
abbrev S256x128 : Shape := ⟨2, ![256, 128]⟩
abbrev S256 : Shape := ⟨1, ![256]⟩
abbrev S_ : Shape := ⟨0, ![]⟩

class Facts : Prop where
  bcast_S_S256x512x128 : S_.BroadcastsInDim S256x512x128 (![] : Fin 0 → Fin S256x512x128.rank)
  reducesTo_S256x512x128_S_d0_1_2 : S256x512x128.ReducesTo [0, 1, 2] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S256x512x128 .f32) (main_arg1 : FVec F S256x128 .f32) (main_arg2 : FVec F S256 .f32) : IVec S_ 1 :=
  let main_v0 : FVec F S256x512x128 .f32 := Host.absf main_arg0
  let main_cst : FVec F S_ .f32 := constant S_ .f32 0x7F800000#32
  let main_v1 : FVec F S256x512x128 .f32 := broadcastInDim S256x512x128 ![] bcast_S_S256x512x128 main_cst
  let main_v2 : IVec S256x512x128 1 := cmpf .olt main_v0 main_v1
  let main_c : IVec S_ 1 := constantI S_ 1 1#1
  let main_v3 : IVec S_ 1 := (fun x v => Host.reduce IntOp.andi x v reducesTo_S256x512x128_S_d0_1_2 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S256x512x128 : Shape := ⟨3, ![256, 512, 128]⟩
abbrev S256x128 : Shape := ⟨2, ![256, 128]⟩
abbrev S256 : Shape := ⟨1, ![256]⟩
abbrev S128x256 : Shape := ⟨2, ![128, 256]⟩
abbrev S1x256 : Shape := ⟨2, ![1, 256]⟩
abbrev S256x256 : Shape := ⟨2, ![256, 256]⟩
abbrev S64x512x128 : Shape := ⟨3, ![64, 512, 128]⟩
abbrev S64x256 : Shape := ⟨2, ![64, 256]⟩
abbrev S64x64x128 : Shape := ⟨3, ![64, 64, 128]⟩
abbrev S4096x128 : Shape := ⟨2, ![4096, 128]⟩
abbrev S4096x256 : Shape := ⟨2, ![4096, 256]⟩
abbrev S64x64x256 : Shape := ⟨3, ![64, 64, 256]⟩

abbrev nBuf : Space → Nat
  | .hbm => 7
  | .vmem => 6
  | .smem => 0
  | _ => 0

abbrev bufTy : (tb : Table) → Fin (tcTables nBuf tb) → BufTy
  | .hbm, ⟨0, _⟩ => ⟨S256x512x128, .f32⟩
  | .hbm, ⟨1, _⟩ => ⟨S256x128, .f32⟩
  | .hbm, ⟨2, _⟩ => ⟨S256, .f32⟩
  | .hbm, ⟨3, _⟩ => ⟨S256x128, .bf16⟩
  | .hbm, ⟨4, _⟩ => ⟨S128x256, .bf16⟩
  | .hbm, ⟨5, _⟩ => ⟨S1x256, .f32⟩
  | .hbm, ⟨6, _⟩ => ⟨S256x256, .f32⟩
  | .local _ .vmem, ⟨0, _⟩ => ⟨S64x512x128, .f32⟩
  | .local _ .vmem, ⟨1, _⟩ => ⟨S64x512x128, .f32⟩
  | .local _ .vmem, ⟨2, _⟩ => ⟨S128x256, .bf16⟩
  | .local _ .vmem, ⟨3, _⟩ => ⟨S1x256, .f32⟩
  | .local _ .vmem, ⟨4, _⟩ => ⟨S64x256, .f32⟩
  | .local _ .vmem, ⟨5, _⟩ => ⟨S64x256, .f32⟩
  | _, _ => ⟨S256x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c64_i32 : BitVec 32 := 64#32
  let v10 : BitVec 32 := Scalar.muli arg5 c64_i32
  v10
def k0_off1 (k0_t1 : Fin k0_t1_loop.trips) : Fin 3 → Nat :=
  let c0_6 : Index := 0#32
  let c0_i32 : BitVec 32 := 0#32
  let c1_i32 : BitVec 32 := 1#32
  let arg5 : BitVec 32 := Scf.iv c0_i32 c1_i32 k0_t1
  let c64_i32 : BitVec 32 := 64#32
  let v10 : BitVec 32 := Scalar.muli arg5 c64_i32
  let v11 : BitVec 32 := v10
  let v12 : Index := Scalar.indexCast v11
  let c0_7 : Index := 0#32
  ![0, v12.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  transposes_S256x128_S128x256_1_0 : S256x128.Transposes [1, 0] S128x256
  shapeCasts_S256_S1x256 : S256.ShapeCasts S1x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  h_S64x64x128 : 0 < S64x64x128.numel
  shapeCasts_S64x64x128_S4096x128 : S64x64x128.ShapeCasts S4096x128
  shapeCasts_S4096x256_S64x64x256 : S4096x256.ShapeCasts S64x64x256
  reduces_S64x64x256_S64x256 : S64x64x256.Reduces [1] S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  inb_S64x256_S64x256_0_0 : ∀ a, (![0, 0] : Fin 2 → Nat) a + S64x256.size a ≤ S64x256.size a
  h_S64x256 : 0 < S64x256.numel
  dot_S4096x128_S128x256_S4096x256_1_0_0_1_n_n_wf : DotDims.WF S4096x128 S128x256 S4096x256 [1] [0] [0] [1] [] []
  hrank0 : 0 < grid0.rank
  k0_t1_ok : k0_t1_loop.OK
  k0_mult1_dvd : ∀ k0_t1 : Fin k0_t1_loop.trips, 64 ∣ (k0_mult1 k0_t1).toNat
  k0_off1_inb : ∀ k0_t1 : Fin k0_t1_loop.trips, ∀ a, (k0_off1 k0_t1) a + S64x64x128.size a ≤ S64x512x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x512x128.size a ≤ S256x512x128.size a
  hwx0_0 : ∀ i : grid0.Coords, EltTy.bits .f32 = 32 ∨ (Rect.block (s := S256x512x128) S64x512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S256x256.size a
  hwx0_3 : ∀ i : grid0.Coords, EltTy.bits .f32 = 32 ∨ (Rect.block (s := S256x256) S64x256.size (cc0_transform_3 i) (hinb0_3 i)).WholeWords (EltTy.packing .f32)

variable [Facts₀]

def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf

abbrev win0_0 : Pipeline.Window sig grid0 :=
  Pipeline.Window.ofSpec (Memref.whole main_arg0) S64x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x512x128 : Shape := ⟨3, ![256, 512, 128]⟩
abbrev S256x128 : Shape := ⟨2, ![256, 128]⟩
abbrev S256 : Shape := ⟨1, ![256]⟩
abbrev S256x512x256 : Shape := ⟨3, ![256, 512, 256]⟩
abbrev S_ : Shape := ⟨0, ![]⟩
abbrev S256x256 : Shape := ⟨2, ![256, 256]⟩
abbrev S1x256 : Shape := ⟨2, ![1, 256]⟩

abbrev nBuf : Space → Nat
  | .hbm => 9
  | .vmem => 0
  | .smem => 0
  | _ => 0

abbrev bufTy : (tb : Table) → Fin (tcTables nBuf tb) → BufTy
  | .hbm, ⟨0, _⟩ => ⟨S256x512x128, .f32⟩
  | .hbm, ⟨1, _⟩ => ⟨S256x128, .f32⟩
  | .hbm, ⟨2, _⟩ => ⟨S256, .f32⟩
  | .hbm, ⟨3, _⟩ => ⟨S256x512x256, .f32⟩
  | .hbm, ⟨4, _⟩ => ⟨S_, .f32⟩
  | .hbm, ⟨5, _⟩ => ⟨S256x256, .f32⟩
  | .hbm, ⟨6, _⟩ => ⟨S1x256, .f32⟩
  | .hbm, ⟨7, _⟩ => ⟨S256x256, .f32⟩
  | .hbm, ⟨8, _⟩ => ⟨S256x256, .f32⟩
  | _, _ => ⟨S256x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  reducesTo_S256x512x256_S256x256_d1 : S256x512x256.ReducesTo [1] S256x256
  h_S_ : 0 < S_.numel
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  dot_S256x512x128_S256x128_S256x512x256_2_1_01_0_n_n_wf : DotDims.WF S256x512x128 S256x128 S256x512x256 [2] [1] [0, 1] [0] [] []

variable [Facts₀]

def dot_S256x512x128_S256x128_S256x512x256_2_1_01_0_n_n : DotDims S256x512x128 S256x128 S256x512x256 where
  lhsContracting := [2]
  rhsContracting := [1]
  lhsNonContracting := [0, 1]
  rhsNonContracting := [0]
  lhsBatch := []
  rhsBatch := []
  wf := dot_S256x512x128_S256x128_S256x512x256_2_1_01_0_n_n_wf

class Facts : Prop extends Facts₀ where

variable [Facts]
-- ==== Proof.KernelTrips.lean ====
/-
  What one grid step of the kernel leaves in its output block, as a term of the step's three input
  blocks, at any float instance.

  The body keeps a running value across its eight trips. Trip `k` loads sequence positions
  `64 k … 64 k + 63` of the step's block of `x` (all 64 batch rows, all 128 features) and replaces the
  running value `acc` by the trip's payload of `acc` and that slab. After the last trip the body adds the
  bias row and stores the sum as the whole output block. So the block is the closing payload of the
  value carried out of the loop and the bias block, and the carried value obeys a one-step recursion
  over the slabs.
-/
import proofs.«420727_j8229157339851_3_alg».proof.Proof.Gen.KernelIdeal.Frame
import Idealize.ShloMosaic.Lib.Pipeline.Value
import Idealize.ShloMosaic.Lib.WholeRead

set_option maxRecDepth 16384

noncomputable section

namespace Cert.KernelIdeal.Trips

open Cert.KernelIdeal Cert.KernelIdeal.Gen
open Idealize.ShloMosaic Idealize.ShloMosaic.TcCoe Idealize.ShloMosaic.Tactic
open Idealize.SL Idealize.SL.Sem

variable {F : FTy → Type} [FloatOps F]

theorem zero_offsets : (![0, 0] : Fin 2 → Nat) = fun _ => 0 := funext fun a => by fin_cases a <;> rfl

/-- The slab of the step's `x` block that trip `k` loads: all batch rows and features, sequence
    positions `64 k … 64 k + 63`. -/
def slab (x0 : Vec F S64x512x128 .f32) (k : Fin k0_t1_loop.trips) : Vec F S64x64x128 .f32 :=
  fun y => x0 ((Rect.unit (s := S64x512x128) (k0_off1 k) S64x64x128.size (k0_off1_inb k)).toLoadRect.idx y)

/-- The value the loop carries before trip `k`, with the `x` block held at contents that read `x0` and
    the weight block loaded as `x1`. -/
abbrev carried (c : Dev nD) (i : grid0.Coords) (arg1 : Memref sig .tc .vmem S64x512x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S64x256 .f32) (harg4 : arg4.IsWhole)
    (x0 : Vec F S64x512x128 .f32) (x1 : Vec F S128x256 .bf16) (k : Nat) : FVec F S64x256 .f32 :=
  st_k0_t1 (F := F) Variants.none c none i arg1 harg1 arg2 harg2 arg3 harg3 arg4 harg4 x1 (harg1.unread x0) (k0_pay1 (F := F)) k

/-- One trip yields its payload of the carried value and the rectangle it loads. -/
theorem trip_yield (𝒱 : Variants) (bd : Option 𝒱.V) (c : Dev nD) (i : grid0.Coords) (arg1 : Memref sig .tc .vmem S64x512x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S64x256 .f32) (harg4 : arg4.IsWhole)
    (v0 : Vec F S128x256 .bf16) (X_arg1 : BufTy.Contents (Elt F) arg1.view.ty) (k : Fin k0_t1_loop.trips) (acc : FVec F S64x256 .f32) :
    tripR_k0_t1 (F := F) 𝒱 c bd i arg1 harg1 arg2 harg2 arg3 harg3 arg4 harg4 v0 X_arg1 k acc
      = k0_pay2 v0 acc (View.readAt (Elt F) arg1.view (Rect.unit (s := S64x512x128) (k0_off1 k) S64x64x128.size (k0_off1_inb k)).toLoadRect X_arg1) := by
  unfold tripR_k0_t1 trip_k0_t1
  rfl

/-- Before the first trip the loop carries the splat it was started with. -/
theorem carried_zero (c : Dev nD) (i : grid0.Coords) (arg1 : Memref sig .tc .vmem S64x512x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S64x256 .f32) (harg4 : arg4.IsWhole)
    (x0 : Vec F S64x512x128 .f32) (x1 : Vec F S128x256 .bf16) :
    carried c i arg1 harg1 arg2 harg2 arg3 harg3 arg4 harg4 x0 x1 0 = k0_pay1 (F := F) := rfl

/-- After trip `k` the loop carries the trip's payload of what it carried before and slab `k`. -/
theorem carried_succ (c : Dev nD) (i : grid0.Coords) (arg1 : Memref sig .tc .vmem S64x512x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S64x256 .f32) (harg4 : arg4.IsWhole)
    (x0 : Vec F S64x512x128 .f32) (x1 : Vec F S128x256 .bf16) (k : Fin k0_t1_loop.trips) :
    carried c i arg1 harg1 arg2 harg2 arg3 harg3 arg4 harg4 x0 x1 (k.val + 1)
      = k0_pay2 x1 (carried c i arg1 harg1 arg2 harg2 arg3 harg3 arg4 harg4 x0 x1 k.val) (slab x0 k) := by
  unfold carried
  rw [st_k0_t1_succ, trip_yield]
  exact congrArg (k0_pay2 x1 _) (funext fun y => harg1.readAt_unread x0 _ y)

/-- The output block the step leaves: the closing payload of the value carried out of the loop and
    the bias block. -/
theorem block_eq (c : Dev nD) (i : grid0.Coords) (arg1 : Memref sig .tc .vmem S64x512x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S64x256 .f32) (harg4 : arg4.IsWhole)
    (x0 : Vec F S64x512x128 .f32) (x1 : Vec F S128x256 .bf16) (x2 : Vec F S1x256 .f32) :
    out0_A_3 c i arg1 harg1 arg2 harg2 arg3 harg3 arg4 harg4 x0 x1 x2
      = k0_pay3 (carried c i arg1 harg1 arg2 harg2 arg3 harg3 arg4 harg4 x0 x1 k0_t1_loop.trips) x2 := by
  unfold out0_A_3
  rw [View.read_writes_eq_canon _ _ _ (cover0_A_3 c i arg1 harg1 arg2 harg2 arg3 harg3 arg4 harg4 x0 x1 x2)]
  unfold kernelRun0_A
  dsimp only
  sl_unfold_words
  rw [View.canon_unit_zero zero_offsets]
  simp only [View.readAt_eq_ld, harg2.read_unread, harg3.read_unread,
    View.ld_unit_zero (S := S128x256) zero_offsets, View.ld_unit_zero (S := S1x256) zero_offsets]

end Cert.KernelIdeal.Trips

end
-- ==== Proof.PoolMath.lean ====
/-
  Order facts on the extended reals behind a maximum taken piecewise.

  The kernel takes a maximum over 512 sequence positions in 8 pieces of 64: inside a piece it folds
  `max` from minus infinity, and across pieces it keeps a running maximum, again started at minus
  infinity. The reference folds `max` from minus infinity over all 512 positions at once. All of these
  are suprema: minus infinity is the bottom of the extended reals, a fold of `max` from the bottom over a
  whole finite type is the supremum of the family, a running maximum fed one value per step is the
  supremum of the values fed, and a supremum over positions `64 c + j` is the iterated supremum over the
  piece `c` and the offset `j`.
-/
import Idealize.ShloMosaic.PureOps.Ideal
import Mathlib.Data.Fintype.Lattice
import Mathlib.Logic.Equiv.Fin.Basic

namespace Cert.PoolMath

open Idealize.ShloMosaic

/-- The f32 word of minus infinity denotes the bottom of the extended reals. -/
theorem negInf_eq_bot : Ideal.ofBits .f32 0xFF800000#32 = (⊥ : EReal) := by
  simp [Ideal.ofBits, Ideal.ieee]

/-- A fold of `max` from the bottom over a whole finite index type is the supremum of the family. -/
theorem fold_max_bot_eq_iSup {n : Nat} (f : Fin n → EReal) :
    (Finset.univ : Finset (Fin n)).fold max ⊥ f = ⨆ k, f k := by
  rw [← Finset.sup_univ_eq_iSup]; rfl

/-- A supremum over the 512 positions is the supremum over the 8 pieces of the supremum inside each
    piece of 64: position `j + 64 c` is offset `j` of piece `c`. -/
theorem iSup_pieces (f : Fin 512 → EReal) :
    ⨆ n, f n = ⨆ c : Fin 8, ⨆ j : Fin 64, f ⟨j.val + 64 * c.val, by omega⟩ := by
  rw [← (finProdFinEquiv (m := 8) (n := 64)).iSup_comp (g := f), iSup_prod]
  rfl

/-- A running maximum started at the bottom and fed one value per step holds, after all `K` steps, the
    supremum of the values fed. -/
theorem running_max_eq_iSup {K : Nat} (g : Fin K → EReal) (a : Nat → EReal) (h0 : a 0 = ⊥)
    (hs : ∀ k : Fin K, a (k.val + 1) = max (a k.val) (g k)) : a K = ⨆ c, g c := by
  have key : ∀ k, k ≤ K → a k = ⨆ c : Fin K, ⨆ _ : c.val < k, g c := by
    intro k
    induction k with
    | zero => intro _; rw [h0]; simp
    | succ k ih =>
      intro hk
      rw [hs ⟨k, hk⟩, ih (Nat.le_of_succ_le hk)]
      apply le_antisymm
      · apply max_le
        · exact iSup_le fun c => iSup_le fun hc =>
            le_iSup_of_le c (le_iSup_of_le (Nat.lt_succ_of_lt hc) le_rfl)
        · exact le_iSup_of_le ⟨k, hk⟩ (le_iSup_of_le (Nat.lt_succ_self k) le_rfl)
      · refine iSup_le fun c => iSup_le fun hc => ?_
        rcases Nat.lt_succ_iff_lt_or_eq.mp hc with h | h
        · exact le_max_of_le_left (le_iSup_of_le c (le_iSup_of_le h le_rfl))
        · have e : c = ⟨k, hk⟩ := Fin.ext h
          subst e; exact le_max_right _ _
  rw [key K le_rfl]
  exact iSup_congr fun c => by simp [c.isLt]

end Cert.PoolMath
-- ==== Proof.KernelPay.lean ====
/-
  The body's three payloads read at an entry (p, q) of the 64 × 256 output block, at the extended reals.

  * The loop starts from the splat of minus infinity: the bottom.
  * A trip's payload: the slab [64, 64, 128] is flattened to 4096 rows (row `64 p + n` is batch row `p`,
    position `n`), multiplied into the [128, 256] weight block from a zero accumulator, unflattened to
    [64, 64, 256], maximised over the 64 positions from minus infinity, and joined by `max` with the
    carried value. Changing the float format is the identity here, so at (p, q) this is
    `max acc (⨆ n, ∑ d, slab (p, n, d) · w (d, q))`.
  * The closing payload adds the bias row, broadcast down the 64 batch rows.
-/
import proofs.«420727_j8229157339851_3_alg».proof.Proof.Gen.KernelIdeal.Skeleton
import proofs.«420727_j8229157339851_3_alg».proof.Proof.PoolMath
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen
open Idealize.ShloMosaic Idealize.ShloMosaic.ValueIdx

/-- Row `64 p + n` of the flattened slab is batch row `p`, position `n`. -/
def row (p n : Fin 64) : Fin 4096 := ⟨64 * p.val + n.val, by omega⟩

/-- The flattening [64, 64, 128] → [4096, 128] read at (64 p + n, d). -/
theorem flatten_apply {α : Type} (v : S64x64x128.Idx → α) (h : S64x64x128.ShapeCasts S4096x128) (p n : Fin 64) (d : Fin 128) :
    shapeCast S4096x128 v h (ix2 (row p n) d) = v (ix3 p n d) := by
  refine shapeCast_apply v h _ _ ?_
  rw [Shape.rowMajor_val_three, Shape.rowMajor_val_two]
  show (p.val * 64 + n.val) * 128 + d.val = (64 * p.val + n.val) * 128 + d.val
  omega

/-- The unflattening [4096, 256] → [64, 64, 256] read at (p, n, q). -/
theorem unflatten_apply {α : Type} (v : S4096x256.Idx → α) (h : S4096x256.ShapeCasts S64x64x256) (p n : Fin 64) (q : Fin 256) :
    shapeCast S64x64x256 v h (ix3 p n q) = v (ix2 (row p n) q) := by
  refine shapeCast_apply v h _ _ ?_
  rw [Shape.rowMajor_val_three, Shape.rowMajor_val_two]
  show (64 * p.val + n.val) * 256 + q.val = (p.val * 64 + n.val) * 256 + q.val
  omega

/-- The maximum over positions reads, under result entry (p, q), the source entries (p, n, q). -/
theorem lift_eq (h : S64x64x256.Reduces [1] S64x256) (p : Fin 64) (q : Fin 256) (n : Fin 64) :
    h.lift (ix2 p q) n = ix3 p n q := by
  funext a
  apply Fin.ext
  show h.liftVal (ix2 p q) n.val a = _
  match a with
  | ⟨0, _⟩ => rfl
  | ⟨1, _⟩ => rfl
  | ⟨2, _⟩ => rfl

theorem lhs_row (i : S4096x256.Idx) (k : dot_S4096x128_S128x256_S4096x256_1_0_0_1_n_n.contr.Idx) :
    (dot_S4096x128_S128x256_S4096x256_1_0_0_1_n_n.lhsIdx i k 0).val = (i 0).val := by
  unfold DotDims.lhsIdx
  rw [dif_neg (show ¬(0 : Fin S4096x128.rank) ∈ dot_S4096x128_S128x256_S4096x256_1_0_0_1_n_n.lhsBatch by decide), dif_pos (show (0 : Fin S4096x128.rank) ∈ dot_S4096x128_S128x256_S4096x256_1_0_0_1_n_n.lhsNonContracting by decide)]
  rfl
theorem lhs_feature (i : S4096x256.Idx) (k : dot_S4096x128_S128x256_S4096x256_1_0_0_1_n_n.contr.Idx) :
    (dot_S4096x128_S128x256_S4096x256_1_0_0_1_n_n.lhsIdx i k 1).val = (k ⟨0, by decide⟩).val :=
  dot_S4096x128_S128x256_S4096x256_1_0_0_1_n_n.lhsIdx_val_of_single rfl i k
theorem rhs_feature (i : S4096x256.Idx) (k : dot_S4096x128_S128x256_S4096x256_1_0_0_1_n_n.contr.Idx) :
    (dot_S4096x128_S128x256_S4096x256_1_0_0_1_n_n.rhsIdx i k 0).val = (k ⟨0, by decide⟩).val :=
  dot_S4096x128_S128x256_S4096x256_1_0_0_1_n_n.rhsIdx_val_of_single rfl i k
theorem rhs_col (i : S4096x256.Idx) (k : dot_S4096x128_S128x256_S4096x256_1_0_0_1_n_n.contr.Idx) :
    (dot_S4096x128_S128x256_S4096x256_1_0_0_1_n_n.rhsIdx i k 1).val = (i 1).val := by
  unfold DotDims.rhsIdx
  rw [dif_neg (show ¬(1 : Fin S128x256.rank) ∈ dot_S4096x128_S128x256_S4096x256_1_0_0_1_n_n.rhsBatch by decide), dif_pos (show (1 : Fin S128x256.rank) ∈ dot_S4096x128_S128x256_S4096x256_1_0_0_1_n_n.rhsNonContracting by decide)]
  rfl

/-- The product into a zero accumulator, at (r, q): the sum over the 128 features of row `r` of the left
    operand times column `q` of the right. -/
theorem product_apply (lhs : FVec Ideal S4096x128 .bf16) (rhs : FVec Ideal S128x256 .bf16) (r : Fin 4096) (q : Fin 256) :
    matmul dot_S4096x128_S128x256_S4096x256_1_0_0_1_n_n none lhs rhs (constant (F := Ideal) S4096x256 .f32 0x00000000#32) (ix2 r q)
      = ∑ d : Fin 128, lhs (ix2 r d) * rhs (ix2 d q) := by
  simp only [matmul]
  rw [Ideal.matmul_constant_zero_apply, ← Equiv.sum_comp (contrEquiv1 dot_S4096x128_S128x256_S4096x256_1_0_0_1_n_n 128 rfl rfl).symm]
  refine Finset.sum_congr rfl fun d _ => ?_
  have hd := contrEquiv1_symm_val dot_S4096x128_S128x256_S4096x256_1_0_0_1_n_n 128 rfl rfl d
  have el : dot_S4096x128_S128x256_S4096x256_1_0_0_1_n_n.lhsIdx (ix2 r q) ((contrEquiv1 dot_S4096x128_S128x256_S4096x256_1_0_0_1_n_n 128 rfl rfl).symm d) = ix2 r d := funext fun a => Fin.ext (by
    match a with
    | ⟨0, _⟩ => exact lhs_row _ _
    | ⟨1, _⟩ => exact (lhs_feature _ _).trans hd)
  have er : dot_S4096x128_S128x256_S4096x256_1_0_0_1_n_n.rhsIdx (ix2 r q) ((contrEquiv1 dot_S4096x128_S128x256_S4096x256_1_0_0_1_n_n 128 rfl rfl).symm d) = ix2 d q := funext fun a => Fin.ext (by
    match a with
    | ⟨0, _⟩ => exact (rhs_feature _ _).trans hd
    | ⟨1, _⟩ => exact rhs_col _ _)
  rw [el, er]

/-- The loop's starting value is minus infinity everywhere. -/
theorem start_apply (j : S64x256.Idx) : (k0_pay1 (F := Ideal)) j = ⊥ :=
  PoolMath.negInf_eq_bot

/-- The maximum over the slab's 64 positions from minus infinity, at (p, q): the supremum over the positions. -/
theorem positions_max_apply (src : FVec Ideal S64x64x256 .f32) (h : S64x64x256.Reduces [1] S64x256) (hφ : FKind.Formats .f32)
    (hacc : (0xFF800000#32 : BitVec 32) = 0xFF800000#32) (p : Fin 64) (q : Fin 256) :
    multiReduction .maximumf [1] S64x256 src 0xFF800000#32 h hφ hacc (ix2 p q) = ⨆ n : Fin 64, src (ix3 p n q) := by
  refine (Ideal.multiReduction_maximumf_single src 0xFF800000#32 h hφ hacc (ix2 p q)).trans ?_
  rw [show FloatOps.ofBits (F := Ideal) .f32 0xFF800000#32 = ⊥ from PoolMath.negInf_eq_bot]
  refine (PoolMath.fold_max_bot_eq_iSup _).trans (iSup_congr fun n => ?_)
  exact congrArg src (lift_eq h p q n)

/-- A trip's payload at (p, q): the carried value joined with the largest, over the slab's 64 positions, of the
    position's projection onto weight column `q`. -/
theorem trip_apply (v0 : Vec Ideal S128x256 .bf16) (acc : FVec Ideal S64x256 .f32) (v13 : Vec Ideal S64x64x128 .f32)
    (p : Fin 64) (q : Fin 256) :
    k0_pay2 v0 acc v13 (ix2 p q) = max (acc (ix2 p q)) (⨆ n : Fin 64, ∑ d : Fin 128, v13 (ix3 p n d) * v0 (ix2 d q)) := by
  unfold k0_pay2
  rw [maximumf_apply]
  refine congrArg (max _) ?_
  refine (positions_max_apply _ _ _ _ p q).trans (iSup_congr fun n => ?_)
  rw [unflatten_apply, product_apply]
  refine Finset.sum_congr rfl fun d _ => ?_
  rw [flatten_apply, shapeCast_self]
  rfl

/-- The closing payload at (p, q): the carried value plus bias entry `q`. -/
theorem close_apply (v4 : FVec Ideal S64x256 .f32) (v5 : Vec Ideal S1x256 .f32) (p : Fin 64) (q : Fin 256) :
    k0_pay3 v4 v5 (ix2 p q) = v4 (ix2 p q) + v5 (ix2 0 q) := by
  unfold k0_pay3
  show v4 (ix2 p q) + broadcastTo S64x256 (shapeCast S1x256 v5 shapeCasts_S1x256_S1x256) broadcasts_S1x256_S64x256 (ix2 p q) = _
  rw [shapeCast_self]
  refine congrArg (v4 (ix2 p q) + ·) (broadcastTo_apply v5 _ _ (ix2 0 q) fun a => ?_)
  match a with
  | ⟨0, _⟩ => rfl
  | ⟨1, _⟩ => rfl

end Cert.KernelIdeal.Pay

end
-- ==== Proof.KernelBlock.lean ====
/-
  One grid step's output block at the extended reals, entry by entry: with `x0` the step's [64, 512, 128]
  block of `x`, `x1` the [128, 256] weight block and `x2` the [1, 256] bias block,

      block (p, q) = (⨆ n : Fin 512, ∑ d, x0 (p, n, d) · x1 (d, q)) + x2 (0, q).

  The value carried through the loop at (p, q) starts at minus infinity and after trip `k` is joined by
  `max` with the supremum of the projections over slab `k`, positions `64 k … 64 k + 63`. A running
  maximum fed one value per trip is the supremum of the values fed, and the supremum over the eight
  slabs of the suprema inside them is the supremum over all 512 positions.
-/
import proofs.«420727_j8229157339851_3_alg».proof.Proof.KernelTrips
import proofs.«420727_j8229157339851_3_alg».proof.Proof.KernelPay

set_option maxRecDepth 16384

noncomputable section

namespace Cert.KernelIdeal.Block

open Cert.KernelIdeal Cert.KernelIdeal.Gen
open Idealize.ShloMosaic Idealize.ShloMosaic.TcCoe Idealize.ShloMosaic.ValueIdx

theorem trips_eq : k0_t1_loop.trips = 8 := by decide

/-- Position `n` of slab `k` is position `n + 64 k` of the block. -/
def pos (k : Fin k0_t1_loop.trips) (n : Fin 64) : Fin 512 :=
  ⟨n.val + 64 * k.val, by have := k.isLt; have := trips_eq; omega⟩

/-- Slab `k`'s entry (p, n, d) is the block's entry (p, n + 64 k, d). -/
theorem slab_apply (x0 : Vec Ideal S64x512x128 .f32) (k : Fin k0_t1_loop.trips) (p n : Fin 64) (d : Fin 128) :
    Trips.slab x0 k (ix3 p n d) = x0 (ix3 p (pos k n) d) := by
  unfold Trips.slab
  refine congrArg x0 (funext fun a => Fin.ext ?_)
  rw [LoadRect.idx_apply]
  show (k0_off1 k) a + 1 * ((ix3 p n d) a).val = _
  rw [k0_off1_eq k]
  match a with
  | ⟨0, _⟩ => show 0 + 1 * p.val = p.val; omega
  | ⟨1, _⟩ => show 64 * k.val + 1 * n.val = n.val + 64 * k.val; omega
  | ⟨2, _⟩ => show 0 + 1 * d.val = d.val; omega

/-- The supremum over the 512 positions, slab by slab, the slabs indexed by the loop's trips. -/
theorem iSup_slabs (f : Fin 512 → EReal) :
    ⨆ n, f n = ⨆ k : Fin k0_t1_loop.trips, ⨆ n : Fin 64, f (pos k n) := by
  rw [PoolMath.iSup_pieces f, ← (finCongr trips_eq).iSup_comp]
  rfl

/-- The output block at (p, q). -/
theorem block_apply (c : Dev nD) (i : grid0.Coords) (arg1 : Memref sig .tc .vmem S64x512x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S64x256 .f32) (harg4 : arg4.IsWhole)
    (x0 : Vec Ideal S64x512x128 .f32) (x1 : Vec Ideal S128x256 .bf16) (x2 : Vec Ideal S1x256 .f32) (p : Fin 64) (q : Fin 256) :
    out0_A_3 c i arg1 harg1 arg2 harg2 arg3 harg3 arg4 harg4 x0 x1 x2 (ix2 p q)
      = (⨆ n : Fin 512, ∑ d : Fin 128, x0 (ix3 p n d) * x1 (ix2 d q)) + x2 (ix2 0 q) := by
  rw [Trips.block_eq, Pay.close_apply]
  refine congrArg (· + x2 (ix2 0 q)) ?_
  rw [iSup_slabs]
  refine PoolMath.running_max_eq_iSup
    (fun k => ⨆ n : Fin 64, ∑ d : Fin 128, x0 (ix3 p (pos k n) d) * x1 (ix2 d q))
    (fun k => Trips.carried c i arg1 harg1 arg2 harg2 arg3 harg3 arg4 harg4 x0 x1 k (ix2 p q))
    (Pay.start_apply _) (fun k => ?_)
  show Trips.carried c i arg1 harg1 arg2 harg2 arg3 harg3 arg4 harg4 x0 x1 (k.val + 1) (ix2 p q) = _
  rw [Trips.carried_succ, Pay.trip_apply]
  refine congrArg (max _) (iSup_congr fun n => Finset.sum_congr rfl fun d _ => ?_)
  rw [slab_apply]

end Cert.KernelIdeal.Block

end
-- ==== Proof.PoolSpec.lean ====
/-
  The pooled projection both programs compute, as one function of the three argument arrays:

      out[b, h] = (max over the 512 positions n of  ∑ d, x[b, n, d] · weight[h, d]) + bias[h]

  over the extended reals, the maximum as a supremum (over an inhabited finite set the two agree).
-/
import Idealize.ShloMosaic.PureOps.Ideal
import Idealize.ShloMosaic.Lib.ValueIdx

noncomputable section

namespace Cert.PoolSpec

open Idealize.ShloMosaic Idealize.ShloMosaic.ValueIdx

/-- Position `n` of batch row `b` projected onto weight row `h`. -/
def proj (x : (⟨3, ![256, 512, 128]⟩ : Shape).Idx → EReal) (w : (⟨2, ![256, 128]⟩ : Shape).Idx → EReal)
    (b : Fin 256) (h : Fin 256) (n : Fin 512) : EReal :=
  ∑ d : Fin 128, x (ix3 b n d) * w (ix2 h d)

/-- The largest projection over the positions, plus the bias. -/
def pooled (x : (⟨3, ![256, 512, 128]⟩ : Shape).Idx → EReal) (w : (⟨2, ![256, 128]⟩ : Shape).Idx → EReal)
    (bias : (⟨1, ![256]⟩ : Shape).Idx → EReal) : (⟨2, ![256, 256]⟩ : Shape).Idx → EReal :=
  fun i => (⨆ n : Fin 512, proj x w (i 0) (i 1) n) + bias (ix1 (i 1))

end Cert.PoolSpec

end
-- ==== Proof.KernelArray.lean ====
/-
  The kernel's result array at the extended reals is the pooled projection of its three arguments.

  The grid has four steps; step `t` works on batch rows `64 t … 64 t + 63`. Its `x` block is those
  rows of `x` (all positions, all features); its weight block is the whole [128, 256] array the host
  prepared before the launch, the transpose of the weight (the change of float format being the identity
  here), so entry (d, q) of the block is weight[q, d]; its bias block is the bias as one row. By the
  block's value, entry (p, q) of what step `t` writes back is the pooled projection at (64 t + p, q),
  which is where the output window places that entry. The four written blocks tile the 256 rows, so the
  whole result array is the pooled projection.
-/
import proofs.«420727_j8229157339851_3_alg».proof.Proof.Gen.KernelIdeal.Value
import proofs.«420727_j8229157339851_3_alg».proof.Proof.KernelBlock
import proofs.«420727_j8229157339851_3_alg».proof.Proof.PoolSpec
import Idealize.ShloMosaic.Lib.StableHlo.Run

set_option maxRecDepth 16384

noncomputable section

namespace Cert.KernelIdeal.Pooled

open Cert.KernelIdeal Cert.KernelIdeal.Gen Cert.KernelIdeal.Value
open Idealize.ShloMosaic Idealize.ShloMosaic.TcCoe Idealize.ShloMosaic.Tactic Idealize.ShloMosaic.StableHlo
open Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The windows' block indices at step `t`: the `x` window and the output window move down the batch axis
    with `t`; the weight and bias windows stay on their one block. -/
theorem index_facts : ∀ t : Fin cfg0.N, win0_3.index t (0 : Fin 2) = t.val ∧ win0_3.index t (1 : Fin 2) = 0
    ∧ win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The three argument arrays on core `c`. -/
abbrev xarr (c : Dev nD) : Vec Ideal S256x512x128 .f32 := m ((c : Thread nD τ).loc main_arg0)
abbrev warr (c : Dev nD) : Vec Ideal S256x128 .f32 := m ((c : Thread nD τ).loc main_arg1)
abbrev barr (c : Dev nD) : Vec Ideal S256 .f32 := m ((c : Thread nD τ).loc main_arg2)

/-- The three input blocks of step `t`. -/
abbrev xblk (c : Dev nD) (t : Fin cfg0.N) : Vec Ideal S64x512x128 .f32 := iblk m c 0 t
abbrev wblk (c : Dev nD) (t : Fin cfg0.N) : Vec Ideal S128x256 .bf16 := iblk m c 1 t
abbrev bblk (c : Dev nD) (t : Fin cfg0.N) : Vec Ideal S1x256 .f32 := iblk m c 2 t

/-- The array the weight window stages: the host's transpose of the weight. -/
theorem staged_weight (c : Dev nD) :
    (V m c main_v1 : S128x256.Idx → Elt Ideal .bf16)
      = transpose S128x256 [1, 0] (truncf (F := Ideal) .bf16 (warr m c) bitsLt_bf16_f32) transposes_S256x128_S128x256_1_0 := by
  dsimp only [Gen.V, Gen.hostOps0]
  after_results

/-- The array the bias window stages: the bias as one row. -/
theorem staged_bias (c : Dev nD) :
    (V m c main_v2 : S1x256.Idx → Elt Ideal .f32) = shapeCast S1x256 (barr m c) shapeCasts_S256_S1x256 := by
  dsimp only [Gen.V, Gen.hostOps0]
  after_results
  rfl

/-- Entry (p, n, d) of step `t`'s `x` block is `x` at batch row `64 t + p`. -/
theorem xblk_apply (c : Dev nD) (t : Fin cfg0.N) (p : Fin 64) (n : Fin 512) (d : Fin 128) (i : S256x512x128.Idx)
    (h0 : (i 0).val = 64 * t.val + p.val) (h1 : (i 1).val = n.val) (h2 : (i 2).val = d.val) :
    xblk m c t (ix3 p n d) = xarr m c i := by
  obtain ⟨-, -, e0, e1, e2, -⟩ := index_facts t
  unfold xblk iblk
  rw [View.read_apply]
  show V m c main_arg0 _ = _
  rw [V_main_arg0]
  refine congrArg (xarr m c) (funext fun a => Fin.ext ?_)
  match a with
  | ⟨0, _⟩ => show win0_0.index t (0 : Fin 3) * 64 + 1 * p.val = (i 0).val; rw [e0, h0]; omega
  | ⟨1, _⟩ => show win0_0.index t (1 : Fin 3) * 512 + 1 * n.val = (i 1).val; rw [e1, h1]; omega
  | ⟨2, _⟩ => show win0_0.index t (2 : Fin 3) * 128 + 1 * d.val = (i 2).val; rw [e2, h2]; omega

/-- Entry (d, q) of the weight block is the weight at (q, d). -/
theorem wblk_apply (c : Dev nD) (t : Fin cfg0.N) (d : Fin 128) (q : Fin 256) :
    wblk m c t (ix2 d q) = warr m c (ix2 q d) := by
  obtain ⟨-, -, -, -, -, e0, e1, -⟩ := index_facts t
  unfold wblk iblk
  rw [View.read_apply]
  show (V m c main_v1 : S128x256.Idx → Elt Ideal .bf16) _ = _
  rw [staged_weight]
  refine transpose_apply [1, 0] _ _ _ (ix2 q d) fun b => ?_
  match b with
  | ⟨0, _⟩ => show d.val = win0_1.index t (0 : Fin 2) * 128 + 1 * d.val; rw [e0]; omega
  | ⟨1, _⟩ => show q.val = win0_1.index t (1 : Fin 2) * 256 + 1 * q.val; rw [e1]; omega

/-- Entry (0, q) of the bias block is bias entry `q`. -/
theorem bblk_apply (c : Dev nD) (t : Fin cfg0.N) (q : Fin 256) :
    bblk m c t (ix2 0 q) = barr m c (ix1 q) := by
  obtain ⟨-, -, -, -, -, -, -, e0, e1⟩ := index_facts t
  unfold bblk iblk
  rw [View.read_apply]
  show (V m c main_v2 : S1x256.Idx → Elt Ideal .f32) _ = _
  rw [staged_bias]
  refine shapeCast_apply _ _ _ (ix1 q) ?_
  rw [Shape.rowMajor_val_one, Shape.rowMajor_val_two]
  show q.val = (win0_2.index t (0 : Fin 2) * 1 + 1 * 0) * 256 + (win0_2.index t (1 : Fin 2) * 256 + 1 * q.val)
  rw [e0, e1]; omega

/-- What step `t` writes back is its block of the pooled projection of the arguments. -/
theorem flushed_eq (c : Dev nD) (t : Fin cfg0.N) :
    (dats m 0 c).flushed 3 t
      = ((cfg0.win 3).blk t).view.read (Elt Ideal) (PoolSpec.pooled (xarr m c) (warr m c) (barr m c)) := by
  rw [flushed3_A]
  funext y
  obtain ⟨p, q, rfl⟩ : ∃ (p : Fin 64) (q : Fin 256), y = ix2 p q := ⟨y 0, y 1, eq_ix2 y⟩
  show out0_A_3 c (grid0.coords t) (ms0_0 t) (hs0_0 t) (ms0_1 t) (hs0_1 t) (ms0_2 t) (hs0_2 t) (ms0_3 t) (hs0_3 t)
      (xblk m c t) (wblk m c t) (bblk m c t) (ix2 p q) = _
  refine (Block.block_apply c (grid0.coords t) (ms0_0 t) (hs0_0 t) (ms0_1 t) (hs0_1 t) (ms0_2 t) (hs0_2 t) (ms0_3 t) (hs0_3 t)
      (xblk m c t) (wblk m c t) (bblk m c t) p q).trans ?_
  rw [View.read_apply]
  show _ = PoolSpec.pooled (xarr m c) (warr m c) (barr m c) (((cfg0.win 3).blk t).view.emb (ix2 p q))
  obtain ⟨e0, e1, -⟩ := index_facts t
  have r0 : ((((cfg0.win 3).blk t).view.emb (ix2 p q)) 0).val = 64 * t.val + p.val := by
    show win0_3.index t (0 : Fin 2) * 64 + 1 * p.val = _; rw [e0]; omega
  have r1 : ((((cfg0.win 3).blk t).view.emb (ix2 p q)) 1).val = q.val := by
    show win0_3.index t (1 : Fin 2) * 256 + 1 * q.val = _; rw [e1]; omega
  unfold PoolSpec.pooled PoolSpec.proj
  refine congrArg₂ (· + ·) (iSup_congr fun n => Finset.sum_congr rfl fun d _ => congrArg₂ (· * ·) ?_ ?_) ?_
  · exact xblk_apply m c t p n d _ r0 rfl rfl
  · refine (wblk_apply m c t d q).trans (congrArg (warr m c) (funext fun a => Fin.ext ?_))
    match a with
    | ⟨0, _⟩ => exact r1.symm
    | ⟨1, _⟩ => rfl
  · refine (bblk_apply m c t q).trans (congrArg (barr m c) (funext fun a => Fin.ext ?_))
    match a with
    | ⟨0, _⟩ => exact r1.symm

/-- Every entry of the result array lies in the block some step writes back: row `r` in step `r / 64`'s. -/
theorem covered (i : S256x256.Idx) :
    ∃ t : Fin cfg0.N, (cfg0.win 3).flush t = true ∧ i ∈ ((cfg0.win 3).blk t).view.set := by
  have hN : grid0.N = 4 := N_0
  have hi0 : (i 0).val < 256 := (i 0).isLt
  have hi1 : (i 1).val < 256 := (i 1).isLt
  obtain ⟨t, ht⟩ : ∃ t : Fin cfg0.N, t.val = (i 0).val / 64 := ⟨⟨(i 0).val / 64, by show _ < grid0.N; rw [hN]; omega⟩, rfl⟩
  obtain ⟨e0, e1, -⟩ := index_facts t
  refine ⟨t, flush0_3 t, ?_⟩
  show i ∈ ((View.whole main_v3).slice (win0_3.rect t)).set
  rw [View.set_slice_whole, Rect.mem_set_unit]
  intro a
  match a with
  | ⟨0, _⟩ =>
    show win0_3.index t (0 : Fin 2) * 64 ≤ (i 0).val ∧ (i 0).val < win0_3.index t (0 : Fin 2) * 64 + 64
    rw [e0]; omega
  | ⟨1, _⟩ =>
    show win0_3.index t (1 : Fin 2) * 256 ≤ (i 1).val ∧ (i 1).val < win0_3.index t (1 : Fin 2) * 256 + 256
    rw [e1]; omega

/-- The result array after the run. -/
theorem final (c : Dev nD) :
    (dats m 0 c).arrAt 3 cfg0.N = PoolSpec.pooled (xarr m c) (warr m c) (barr m c) :=
  (dats m 0 c).arrAt_eq_of_cover 3 _ (fun t _ => flushed_eq m c t) covered

/-- The kernel's run, read: the result array at the pooled projection of the arguments, the arguments unchanged. -/
theorem run : θ_run defs (onTc (τ := τ) (main (F := Ideal))) ⟨m, fun _ => 0, ρ⟩ fun r => ∀ c : Dev nD,
      r.2.mem ((c : Thread nD τ).loc main_v3) = PoolSpec.pooled (xarr m c) (warr m c) (barr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Pooled

end
-- ==== Proof.RefPool.lean ====
/-
  The reference computes the pooled projection.

  Its contraction over the features puts ∑ d, x[b, n, d] · weight[h, d] at entry (b, n, h); its reduction
  over axis 1 folds `max` from minus infinity over the 512 positions, which is their supremum; the bias
  is broadcast over the batch rows and added.
-/
import proofs.«420727_j8229157339851_3_alg».proof.Proof.Gen.ReferenceIdeal.Read
import proofs.«420727_j8229157339851_3_alg».proof.Proof.PoolMath
import proofs.«420727_j8229157339851_3_alg».proof.Proof.PoolSpec

noncomputable section

namespace Cert.ReferenceIdeal.Pool

open Cert.ReferenceIdeal Cert.ReferenceIdeal.Gen Cert.ReferenceIdeal.Read
open Idealize.ShloMosaic Idealize.ShloMosaic.ValueIdx

/-- The reduction over positions reads, under result entry `i` = (b, h), the source entries (b, n, h). -/
theorem lift_eq (hr : S256x512x256.Reduces [1] S256x256) (i : S256x256.Idx) (n : Fin 512) :
    hr.lift i n = ix3 (i 0) n (i 1) := by
  funext a
  apply Fin.ext
  show hr.liftVal i n.val a = _
  match a with
  | ⟨0, _⟩ => rfl
  | ⟨1, _⟩ => rfl
  | ⟨2, _⟩ => rfl

/-- The contraction's entry (b, n, h) is position `n` of batch row `b` projected onto weight row `h`. -/
theorem contraction_apply (x0 : (⟨S256x512x128, .f32⟩ : BufTy).Contents (Elt Ideal)) (x1 : (⟨S256x128, .f32⟩ : BufTy).Contents (Elt Ideal))
    (b : Fin 256) (n : Fin 512) (h : Fin 256) :
    val_main_v0 (F := Ideal) x0 x1 (ix3 b n h) = PoolSpec.proj x0 x1 b h n := by
  rw [val_main_v0_apply]
  refine Finset.sum_congr rfl fun d _ => ?_
  have el : lidx_main_v0 (ix3 b n h) d = ix3 b n d := funext fun a => by
    match a with
    | ⟨0, _⟩ => rfl
    | ⟨1, _⟩ => rfl
    | ⟨2, _⟩ => rfl
  have er : ridx_main_v0 (ix3 b n h) d = ix2 h d := funext fun a => by
    match a with
    | ⟨0, _⟩ => rfl
    | ⟨1, _⟩ => rfl
  rw [el, er]

/-- A fold of the float maximum from a value that is minus infinity, over a whole finite index type, is the
    supremum of the family. -/
theorem fold_maximumf_eq_iSup {n : Nat} (init : EReal) (hinit : init = ⊥) (f : Fin n → EReal) :
    (Finset.univ : Finset (Fin n)).fold (FloatOps.maximumf (F := Ideal) (φ := .f32)) init f = ⨆ k, f k := by
  subst hinit
  exact PoolMath.fold_max_bot_eq_iSup f

/-- The reference's result, as a function of its three arguments, is the pooled projection. -/
theorem reference_eq (x0 : (⟨S256x512x128, .f32⟩ : BufTy).Contents (Elt Ideal)) (x1 : (⟨S256x128, .f32⟩ : BufTy).Contents (Elt Ideal))
    (x2 : (⟨S256, .f32⟩ : BufTy).Contents (Elt Ideal)) :
    val_main_v4 (F := Ideal) x0 x1 x2 = PoolSpec.pooled x0 x1 x2 := by
  funext i
  have hr : S256x512x256.Reduces [1] S256x256 := by decide
  rw [val_main_v4_apply, val_main_v3_apply, val_main_v2_apply]
  unfold val_main_v1 PoolSpec.pooled
  refine congrArg₂ (· + ·) ?_ ?_
  · refine (Host.reduce_eq_fold_single _ _ _ _ hr _ i).trans ?_
    refine (fold_maximumf_eq_iSup _ PoolMath.negInf_eq_bot _).trans (iSup_congr fun n => ?_)
    exact (congrArg (val_main_v0 (F := Ideal) x0 x1) (lift_eq hr i n)).trans (contraction_apply x0 x1 (i 0) n (i 1))
  · refine congrArg x2 (funext fun a => ?_)
    match a with
    | ⟨0, _⟩ => rfl

end Cert.ReferenceIdeal.Pool

end
-- ==== Proof.lean ====
/-
  A fused linear layer followed by a maximum over the sequence,

      out[b, h] = (max over n of  ∑ d, x[b, n, d] · weight[h, d]) + bias[h],

  computed by a kernel that walks each block of 64 batch rows in eight slabs of 64 positions, keeping a
  running maximum of the slabs' projections, against a reference that contracts once and reduces once.
  Over the extended reals both are the same function of the arguments (`PoolSpec.pooled`): a change of
  float format is the identity, the slabs' maxima from minus infinity joined by a running maximum from minus
  infinity are the supremum over all 512 positions, and the sum over the features has the same terms in the
  same order on both sides. No law used here needs the inputs to be finite, so the precondition is not
  opened. The kernel's idealization rewrote nothing, so there is nothing to preserve.

  The frames of the two kernel programs are the generated frame certificates; the reference's frame is its
  generated run with the result dropped.
-/
import proofs.«420727_j8229157339851_3_alg».proof.Defs
import proofs.«420727_j8229157339851_3_alg».proof.Proof.Gen.Kernel
import proofs.«420727_j8229157339851_3_alg».proof.Proof.Gen.Kernel.Skeleton
import proofs.«420727_j8229157339851_3_alg».proof.Proof.Gen.Kernel.Loops
import proofs.«420727_j8229157339851_3_alg».proof.Proof.Gen.Kernel.Launch
import proofs.«420727_j8229157339851_3_alg».proof.Proof.Gen.Kernel.Points
import proofs.«420727_j8229157339851_3_alg».proof.Proof.Gen.Kernel.Frame
import proofs.«420727_j8229157339851_3_alg».proof.Proof.Gen.KernelIdeal
import proofs.«420727_j8229157339851_3_alg».proof.Proof.Gen.KernelIdeal.Skeleton
import proofs.«420727_j8229157339851_3_alg».proof.Proof.Gen.KernelIdeal.Loops
import proofs.«420727_j8229157339851_3_alg».proof.Proof.Gen.KernelIdeal.Launch
import proofs.«420727_j8229157339851_3_alg».proof.Proof.Gen.KernelIdeal.Points
import proofs.«420727_j8229157339851_3_alg».proof.Proof.Gen.KernelIdeal.Frame
import proofs.«420727_j8229157339851_3_alg».proof.Proof.Gen.ReferenceIdeal
import proofs.«420727_j8229157339851_3_alg».proof.Proof.Gen.Pre_finite_inputs
import proofs.«420727_j8229157339851_3_alg».proof.Proof.Gen.KernelIdeal.Value
import proofs.«420727_j8229157339851_3_alg».proof.Proof.Gen.ReferenceIdeal.Run
import proofs.«420727_j8229157339851_3_alg».proof.Proof.Gen.ReferenceIdeal.Read
import proofs.«420727_j8229157339851_3_alg».proof.Proof.KernelArray
import proofs.«420727_j8229157339851_3_alg».proof.Proof.RefPool
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end with the pooled projection of the (agreeing) arguments in their result arrays. -/
theorem algebraic : Cert.algebraic_KernelIdeal_ReferenceIdeal := by
  intro m ρ m' ρ' _ hagree
  refine ⟨fun c => PoolSpec.pooled (Cert.KernelIdeal.Pooled.xarr m c) (Cert.KernelIdeal.Pooled.warr m c) (Cert.KernelIdeal.Pooled.barr m c),
    Cert.KernelIdeal.Pooled.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v4_eq _ _ _).trans (Cert.ReferenceIdeal.Pool.reference_eq _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
